-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S3x128 .f32) (main_arg5 : FVec F S64x128 .f32) (main_arg6 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1048576x64 .f32) (main_arg1 : FVec F S128x64 .f32) (main_arg2 : FVec F S128 .f32) (main_arg3 : FVec F S384x128 .f32) (main_arg4 : FVec F S3x128 .f32) (main_arg5 : FVec F S64x128 .f32) (main_arg6 : FVec F S64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S8192x64 : Shape := ⟨2, ![8192, 64]⟩
abbrev S8192x128 : Shape := ⟨2, ![8192, 128]⟩
abbrev S1x128 : Shape := ⟨2, ![1, 128]⟩
abbrev S128x128 : Shape := ⟨2, ![128, 128]⟩
abbrev S1x64 : Shape := ⟨2, ![1, 64]⟩

abbrev nBuf : Space → Nat
  | .hbm => 8
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S128x64, .f32⟩
  | .hbm, ⟨2, _⟩ => ⟨S128, .f32⟩
  | .hbm, ⟨3, _⟩ => ⟨S384x128, .f32⟩
  | .hbm, ⟨4, _⟩ => ⟨S3x128, .f32⟩
  | .hbm, ⟨5, _⟩ => ⟨S64x128, .f32⟩
  | .hbm, ⟨6, _⟩ => ⟨S64, .f32⟩
  | .hbm, ⟨7, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S128x64, .f32⟩
  | .local _ .vmem, ⟨3, _⟩ => ⟨S128, .f32⟩
  | .local _ .vmem, ⟨4, _⟩ => ⟨S384x128, .f32⟩
  | .local _ .vmem, ⟨5, _⟩ => ⟨S3x128, .f32⟩
  | .local _ .vmem, ⟨6, _⟩ => ⟨S64x128, .f32⟩
  | .local _ .vmem, ⟨7, _⟩ => ⟨S64, .f32⟩
  | .local _ .vmem, ⟨8, _⟩ => ⟨S8192x64, .f32⟩
  | .local _ .vmem, ⟨9, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S384x128_S128x128_0_0 : ∀ a, (![0, 0] : Fin 2 → Nat) a + S128x128.size a ≤ S384x128.size a
  h_S128x128 : 0 < S128x128.numel
  inb_S3x128_S1x128_0_0 : ∀ a, (![0, 0] : Fin 2 → Nat) a + S1x128.size a ≤ S3x128.size a
  h_S1x128 : 0 < S1x128.numel
  shapeCasts_S1x128_S128 : S1x128.ShapeCasts S128
  inb_S384x128_S128x128_128_0 : ∀ a, (![128, 0] : Fin 2 → Nat) a + S128x128.size a ≤ S384x128.size a
  inb_S3x128_S1x128_1_0 : ∀ a, (![1, 0] : Fin 2 → Nat) a + S1x128.size a ≤ S3x128.size a
  inb_S384x128_S128x128_256_0 : ∀ a, (![256, 0] : Fin 2 → Nat) a + S128x128.size a ≤ S384x128.size a
  inb_S3x128_S1x128_2_0 : ∀ a, (![2, 0] : Fin 2 → Nat) a + S1x128.size a ≤ S3x128.size a
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  dot_S8192x64_S128x64_S8192x128_1_1_0_0_n_n_wf : DotDims.WF S8192x64 S128x64 S8192x128 [1] [1] [0] [0] [] []
  dot_S8192x128_S128x128_S8192x128_1_1_0_0_n_n_wf : DotDims.WF S8192x128 S128x128 S8192x128 [1] [1] [0] [0] [] []
  dot_S8192x128_S64x128_S8192x64_1_1_0_0_n_n_wf : DotDims.WF S8192x128 S64x128 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S1048576x64.size a
  hwx0_7 : ∀ i : grid0.Coords, EltTy.bits .f32 = 32 ∨ (Rect.block (s := S1048576x64) S8192x64.size (cc0_transform_7 i) (hinb0_7 i)).WholeWords (EltTy.packing .f32)

variable [Facts₀]

def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S3x128x128 : Shape := ⟨3, ![3, 128, 128]⟩
abbrev S1048576x128 : Shape := ⟨2, ![1048576, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S128x64, .f32⟩
  | .hbm, ⟨2, _⟩ => ⟨S128, .f32⟩
  | .hbm, ⟨3, _⟩ => ⟨S384x128, .f32⟩
  | .hbm, ⟨4, _⟩ => ⟨S3x128, .f32⟩
  | .hbm, ⟨5, _⟩ => ⟨S64x128, .f32⟩
  | .hbm, ⟨6, _⟩ => ⟨S64, .f32⟩
  | .hbm, ⟨7, _⟩ => ⟨S3x128x128, .f32⟩
  | .hbm, ⟨8, _⟩ => ⟨S1048576x128, .f32⟩
  | .hbm, ⟨9, _⟩ => ⟨S1x128, .f32⟩
  | .hbm, ⟨10, _⟩ => ⟨S1048576x128, .f32⟩
  | .hbm, ⟨11, _⟩ => ⟨S1048576x128, .f32⟩
  | .hbm, ⟨12, _⟩ => ⟨S_, .f32⟩
  | .hbm, ⟨13, _⟩ => ⟨S1048576x128, .f32⟩
  | .hbm, ⟨14, _⟩ => ⟨S1048576x128, .f32⟩
  | .hbm, ⟨15, _⟩ => ⟨S1x128x128, .f32⟩
  | .hbm, ⟨16, _⟩ => ⟨S128x128, .f32⟩
  | .hbm, ⟨17, _⟩ => ⟨S1048576x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S1048576x128, .f32⟩
  | .hbm, ⟨25, _⟩ => ⟨S1048576x128, .f32⟩
  | .hbm, ⟨26, _⟩ => ⟨S1x128x128, .f32⟩
  | .hbm, ⟨27, _⟩ => ⟨S128x128, .f32⟩
  | .hbm, ⟨28, _⟩ => ⟨S1048576x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S1048576x128, .f32⟩
  | .hbm, ⟨33, _⟩ => ⟨S1048576x128, .f32⟩
  | .hbm, ⟨34, _⟩ => ⟨S_, .f32⟩
  | .hbm, ⟨35, _⟩ => ⟨S1048576x128, .f32⟩
  | .hbm, ⟨36, _⟩ => ⟨S1048576x128, .f32⟩
  | .hbm, ⟨37, _⟩ => ⟨S1x128x128, .f32⟩
  | .hbm, ⟨38, _⟩ => ⟨S128x128, .f32⟩
  | .hbm, ⟨39, _⟩ => ⟨S1048576x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1048576x128, .f32⟩
  | .hbm, ⟨44, _⟩ => ⟨S1048576x128, .f32⟩
  | .hbm, ⟨45, _⟩ => ⟨S_, .f32⟩
  | .hbm, ⟨46, _⟩ => ⟨S1048576x128, .f32⟩
  | .hbm, ⟨47, _⟩ => ⟨S1048576x128, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call2_cst : Ref sig .tc := ⟨.hbm, 34, rfl⟩
abbrev main_call2_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call3_cst : Ref sig .tc := ⟨.hbm, 45, rfl⟩
abbrev main_call3_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  shapeCasts_S384x128_S3x128x128 : S384x128.ShapeCasts S3x128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  dot_S1048576x64_S128x64_S1048576x128_1_1_0_0_n_n_wf : DotDims.WF S1048576x64 S128x64 S1048576x128 [1] [1] [0] [0] [] []
  dot_S1048576x128_S128x128_S1048576x128_1_1_0_0_n_n_wf : DotDims.WF S1048576x128 S128x128 S1048576x128 [1] [1] [0] [0] [] []
  dot_S1048576x128_S64x128_S1048576x64_1_1_0_0_n_n_wf : DotDims.WF S1048576x128 S64x128 S1048576x64 [1] [1] [0] [0] [] []

variable [Facts₀]

def dot_S1048576x64_S128x64_S1048576x128_1_1_0_0_n_n : DotDims S1048576x64 S128x64 S1048576x128 where
  lhsContracting := [1]
  rhsContracting := [1]
  lhsNonContracting := [0]
  rhsNonContracting := [0]
  lhsBatch := []
  rhsBatch := []
  wf := dot_S1048576x64_S128x64_S1048576x128_1_1_0_0_n_n_wf
def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf
def dot_S1048576x128_S64x128_S1048576x64_1_1_0_0_n_n : DotDims S1048576x128 S64x128 S1048576x64 where
  lhsContracting := [1]
  rhsContracting := [1]
  lhsNonContracting := [0]
  rhsNonContracting := [0]
  lhsBatch := []
  rhsBatch := []
  wf := dot_S1048576x128_S64x128_S1048576x64_1_1_0_0_n_n_wf

class Facts : Prop extends Facts₀ where

variable [Facts]
-- ==== Proof.MlpSpec.lean ====
/-
  The multilayer perceptron both programs compute, as ONE function of a row, over the extended reals.

  A row `x : Fin 64 → EReal` goes through an input layer (64 → 128), three hidden layers (128 → 128, the
  weights of hidden layer `l` being rows `128·l … 128·l + 127` of the stacked matrix `w_hid`, its bias row `l` of
  `b_hid`) and an output layer (128 → 64). Every layer is `y_j = Σ_k h_k · W_{j,k} + b_j` (the weight matrix is
  stored output-major, so the sum contracts the SECOND axis of `W`), followed, for all but the output layer, by
  `max(·, 0)`. Nothing here depends on how many rows the batch has or on how the rows are tiled: the value at
  batch row `p`, output unit `o` depends on row `p` of the input only.
-/
import Idealize.ShloMosaic.PureOps.Ideal
import Idealize.ShloMosaic.Lib.ValueIdx

noncomputable section

namespace Cert.Mlp

open Idealize.ShloMosaic Idealize.ShloMosaic.ValueIdx

/-- A matrix and a vector of extended reals, indexed by coordinates. -/
abbrev Mat (r c : ℕ) : Type := (⟨2, ![r, c]⟩ : Shape).Idx → EReal
abbrev Vct (n : ℕ) : Type := (⟨1, ![n]⟩ : Shape).Idx → EReal

/-- The float literal `0.0` as both programs spell it. -/
abbrev zero : EReal := Ideal.ofBits .f32 0x00000000#32

/-- The rectifier: the larger of the argument and `0.0`. -/
def relu (z : EReal) : EReal := max z zero

/-- One unit of an affine layer: the inner product of the incoming activations with the unit's weights, plus
    the unit's bias. -/
def dense {K : ℕ} (h w : Fin K → EReal) (b : EReal) : EReal := (∑ k : Fin K, h k * w k) + b

/-- Row `j` of hidden layer `l`'s weights inside the stacked `[384, 128]` matrix. -/
def hrow (l : Fin 3) (j : Fin 128) : Fin 384 := ⟨128 * l.val + j.val, by have := l.isLt; have := j.isLt; omega⟩

/-- The input layer, rectified. -/
def hidIn (w_in : Mat 128 64) (b_in : Vct 128) (x : Fin 64 → EReal) (j : Fin 128) : EReal :=
  relu (dense x (fun d => w_in (ix2 j d)) (b_in (ix1 j)))

/-- Hidden layer `l`, rectified. -/
def hidNext (w_hid : Mat 384 128) (b_hid : Mat 3 128) (l : Fin 3) (h : Fin 128 → EReal) (j : Fin 128) : EReal :=
  relu (dense h (fun k => w_hid (ix2 (hrow l j) k)) (b_hid (ix2 l j)))

/-- The output layer (no rectifier). -/
def outUnit (w_out : Mat 64 128) (b_out : Vct 64) (h : Fin 128 → EReal) (o : Fin 64) : EReal :=
  dense h (fun k => w_out (ix2 o k)) (b_out (ix1 o))

/-- The whole network on one row. -/
def mlpRow (w_in : Mat 128 64) (b_in : Vct 128) (w_hid : Mat 384 128) (b_hid : Mat 3 128) (w_out : Mat 64 128)
    (b_out : Vct 64) (x : Fin 64 → EReal) : Fin 64 → EReal :=
  outUnit w_out b_out (hidNext w_hid b_hid 2 (hidNext w_hid b_hid 1 (hidNext w_hid b_hid 0 (hidIn w_in b_in x))))

/-- The whole network on a batch of `N` rows: entry `(p, o)` is output unit `o` of the network on row `p`. -/
def mlp {N : ℕ} (x : Mat N 64) (w_in : Mat 128 64) (b_in : Vct 128) (w_hid : Mat 384 128) (b_hid : Mat 3 128)
    (w_out : Mat 64 128) (b_out : Vct 64) : Mat N 64 := fun i =>
  mlpRow w_in b_in w_hid b_hid w_out b_out (fun d => x (ix2 (i 0) d)) (i 1)

theorem mlp_apply {N : ℕ} (x : Mat N 64) (w_in : Mat 128 64) (b_in : Vct 128) (w_hid : Mat 384 128) (b_hid : Mat 3 128)
    (w_out : Mat 64 128) (b_out : Vct 64) (p : Fin N) (o : Fin 64) :
    mlp x w_in b_in w_hid b_hid w_out b_out (ix2 p o)
      = mlpRow w_in b_in w_hid b_hid w_out b_out (fun d => x (ix2 p d)) o := rfl

end Cert.Mlp

end
-- ==== Proof.KernelBlock.lean ====
/-
  What the kernel's body leaves in one output block, read at an index.

  The body loads the whole block of activations `x` (8192 rows of 64) and the whole weight and bias arrays, and
  runs five matrix products with a zero accumulator, each followed by the addition of a bias row broadcast over
  the 8192 rows and, for the first four, by the maximum with `0.0`; the narrowing of a product's operands to
  sixteen bits is the identity on the extended reals. A matrix product into a zero accumulator, read at
  `(p, j)`, is the sum over the contracted coordinate `k` of `l (p, k) · r (j, k)` (both operands are contracted
  along their second axis); the bias, cast from `[n]` to `[1, n]` and broadcast to `[8192, n]`, read at `(p, j)`,
  is its entry `j`. So the entry `(p, o)` of the block is the network of `Cert.Mlp` applied to row `p` of `x`.
-/
import proofs.«144695_j25202868092982_1_alg».proof.Proof.Gen.KernelIdeal.Frame
import proofs.«144695_j25202868092982_1_alg».proof.Proof.MlpSpec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.Mlp

/-! ## The operand indices of the three products -/

theorem lhs_in_0 (i : S8192x128.Idx) (q : dot_S8192x64_S128x64_S8192x128_1_1_0_0_n_n.contr.Idx) :
    (dot_S8192x64_S128x64_S8192x128_1_1_0_0_n_n.lhsIdx i q 0).val = (i 0).val := by
  unfold DotDims.lhsIdx
  rw [dif_neg (show ¬(0 : Fin S8192x64.rank) ∈ dot_S8192x64_S128x64_S8192x128_1_1_0_0_n_n.lhsBatch by decide), dif_pos (show (0 : Fin S8192x64.rank) ∈ dot_S8192x64_S128x64_S8192x128_1_1_0_0_n_n.lhsNonContracting by decide)]
  rfl
theorem lhs_in_1 (i : S8192x128.Idx) (q : dot_S8192x64_S128x64_S8192x128_1_1_0_0_n_n.contr.Idx) :
    (dot_S8192x64_S128x64_S8192x128_1_1_0_0_n_n.lhsIdx i q 1).val = (q ⟨0, by decide⟩).val :=
  dot_S8192x64_S128x64_S8192x128_1_1_0_0_n_n.lhsIdx_val_of_single rfl i q
theorem rhs_in_0 (i : S8192x128.Idx) (q : dot_S8192x64_S128x64_S8192x128_1_1_0_0_n_n.contr.Idx) :
    (dot_S8192x64_S128x64_S8192x128_1_1_0_0_n_n.rhsIdx i q 0).val = (i 1).val := by
  unfold DotDims.rhsIdx
  rw [dif_neg (show ¬(0 : Fin S128x64.rank) ∈ dot_S8192x64_S128x64_S8192x128_1_1_0_0_n_n.rhsBatch by decide), dif_pos (show (0 : Fin S128x64.rank) ∈ dot_S8192x64_S128x64_S8192x128_1_1_0_0_n_n.rhsNonContracting by decide)]
  rfl
theorem rhs_in_1 (i : S8192x128.Idx) (q : dot_S8192x64_S128x64_S8192x128_1_1_0_0_n_n.contr.Idx) :
    (dot_S8192x64_S128x64_S8192x128_1_1_0_0_n_n.rhsIdx i q 1).val = (q ⟨0, by decide⟩).val :=
  dot_S8192x64_S128x64_S8192x128_1_1_0_0_n_n.rhsIdx_val_of_single rfl i q

theorem lhs_hid_0 (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl
theorem lhs_hid_1 (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q
theorem rhs_hid_0 (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl
theorem rhs_hid_1 (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

theorem lhs_out_0 (i : S8192x64.Idx) (q : dot_S8192x128_S64x128_S8192x64_1_1_0_0_n_n.contr.Idx) :
    (dot_S8192x128_S64x128_S8192x64_1_1_0_0_n_n.lhsIdx i q 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
theorem lhs_out_1 (i : S8192x64.Idx) (q : dot_S8192x128_S64x128_S8192x64_1_1_0_0_n_n.contr.Idx) :
    (dot_S8192x128_S64x128_S8192x64_1_1_0_0_n_n.lhsIdx i q 1).val = (q ⟨0, by decide⟩).val :=
  dot_S8192x128_S64x128_S8192x64_1_1_0_0_n_n.lhsIdx_val_of_single rfl i q
theorem rhs_out_0 (i : S8192x64.Idx) (q : dot_S8192x128_S64x128_S8192x64_1_1_0_0_n_n.contr.Idx) :
    (dot_S8192x128_S64x128_S8192x64_1_1_0_0_n_n.rhsIdx i q 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
theorem rhs_out_1 (i : S8192x64.Idx) (q : dot_S8192x128_S64x128_S8192x64_1_1_0_0_n_n.contr.Idx) :
    (dot_S8192x128_S64x128_S8192x64_1_1_0_0_n_n.rhsIdx i q 1).val = (q ⟨0, by decide⟩).val :=
  dot_S8192x128_S64x128_S8192x64_1_1_0_0_n_n.rhsIdx_val_of_single rfl i q

/-! ## The three products into a zero accumulator, read at an index -/

/-- `[8192, 64] · [128, 64]ᵀ`: entry `(p, j)` is `Σ_k l (p, k) · r (j, k)` over the 64 contracted coordinates. -/
theorem matmul_in_apply (l : FVec Ideal S8192x64 .bf16) (r : FVec Ideal S128x64 .bf16) (p : Fin 8192) (j : Fin 128) :
    matmul dot_S8192x64_S128x64_S8192x128_1_1_0_0_n_n none l r (constant (F := Ideal) S8192x128 .f32 0x00000000#32) (ix2 p j)
      = ∑ k : Fin 64, l (ix2 p k) * r (ix2 j k) := by
  simp only [matmul]
  rw [Ideal.matmul_constant_zero_apply, ← Equiv.sum_comp (contrEquiv1 dot_S8192x64_S128x64_S8192x128_1_1_0_0_n_n 64 rfl rfl).symm]
  refine Finset.sum_congr rfl fun k _ => ?_
  have hk := contrEquiv1_symm_val dot_S8192x64_S128x64_S8192x128_1_1_0_0_n_n 64 rfl rfl k
  have el : dot_S8192x64_S128x64_S8192x128_1_1_0_0_n_n.lhsIdx (ix2 p j) ((contrEquiv1 dot_S8192x64_S128x64_S8192x128_1_1_0_0_n_n 64 rfl rfl).symm k) = ix2 p k := funext fun a => Fin.ext (by
    match a with
    | ⟨0, _⟩ => exact lhs_in_0 _ _
    | ⟨1, _⟩ => exact (lhs_in_1 _ _).trans hk)
  have er : dot_S8192x64_S128x64_S8192x128_1_1_0_0_n_n.rhsIdx (ix2 p j) ((contrEquiv1 dot_S8192x64_S128x64_S8192x128_1_1_0_0_n_n 64 rfl rfl).symm k) = ix2 j k := funext fun a => Fin.ext (by
    match a with
    | ⟨0, _⟩ => exact rhs_in_0 _ _
    | ⟨1, _⟩ => exact (rhs_in_1 _ _).trans hk)
  rw [el, er]

/-- `[8192, 128] · [128, 128]ᵀ`: entry `(p, j)` is `Σ_k l (p, k) · r (j, k)` over the 128 contracted coordinates. -/
theorem matmul_hid_apply (l : FVec Ideal S8192x128 .bf16) (r : FVec Ideal S128x128 .bf16) (p : Fin 8192) (j : Fin 128) :
    matmul dot_S8192x128_S128x128_S8192x128_1_1_0_0_n_n none l r (constant (F := Ideal) S8192x128 .f32 0x00000000#32) (ix2 p j)
      = ∑ k : Fin 128, l (ix2 p k) * r (ix2 j k) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 p j) ((contrEquiv1 dot_S8192x128_S128x128_S8192x128_1_1_0_0_n_n 128 rfl rfl).symm k) = ix2 p k := funext fun a => Fin.ext (by
    match a with
    | ⟨0, _⟩ => exact lhs_hid_0 _ _
    | ⟨1, _⟩ => exact (lhs_hid_1 _ _).trans hk)
  have er : dot_S8192x128_S128x128_S8192x128_1_1_0_0_n_n.rhsIdx (ix2 p j) ((contrEquiv1 dot_S8192x128_S128x128_S8192x128_1_1_0_0_n_n 128 rfl rfl).symm k) = ix2 j k := funext fun a => Fin.ext (by
    match a with
    | ⟨0, _⟩ => exact rhs_hid_0 _ _
    | ⟨1, _⟩ => exact (rhs_hid_1 _ _).trans hk)
  rw [el, er]

/-- `[8192, 128] · [64, 128]ᵀ`: entry `(p, o)` is `Σ_k l (p, k) · r (o, k)` over the 128 contracted coordinates. -/
theorem matmul_out_apply (l : FVec Ideal S8192x128 .bf16) (r : FVec Ideal S64x128 .bf16) (p : Fin 8192) (o : Fin 64) :
    matmul dot_S8192x128_S64x128_S8192x64_1_1_0_0_n_n none l r (constant (F := Ideal) S8192x64 .f32 0x00000000#32) (ix2 p o)
      = ∑ k : Fin 128, l (ix2 p k) * r (ix2 o k) := by
  simp only [matmul]
  rw [Ideal.matmul_constant_zero_apply, ← Equiv.sum_comp (contrEquiv1 dot_S8192x128_S64x128_S8192x64_1_1_0_0_n_n 128 rfl rfl).symm]
  refine Finset.sum_congr rfl fun k _ => ?_
  have hk := contrEquiv1_symm_val dot_S8192x128_S64x128_S8192x64_1_1_0_0_n_n 128 rfl rfl k
  have el : dot_S8192x128_S64x128_S8192x64_1_1_0_0_n_n.lhsIdx (ix2 p o) ((contrEquiv1 dot_S8192x128_S64x128_S8192x64_1_1_0_0_n_n 128 rfl rfl).symm k) = ix2 p k := funext fun a => Fin.ext (by
    match a with
    | ⟨0, _⟩ => exact lhs_out_0 _ _
    | ⟨1, _⟩ => exact (lhs_out_1 _ _).trans hk)
  have er : dot_S8192x128_S64x128_S8192x64_1_1_0_0_n_n.rhsIdx (ix2 p o) ((contrEquiv1 dot_S8192x128_S64x128_S8192x64_1_1_0_0_n_n 128 rfl rfl).symm k) = ix2 o k := funext fun a => Fin.ext (by
    match a with
    | ⟨0, _⟩ => exact rhs_out_0 _ _
    | ⟨1, _⟩ => exact (rhs_out_1 _ _).trans hk)
  rw [el, er]

/-! ## A bias row broadcast over the block's rows -/

/-- A bias `[128]`, cast to `[1, 128]` and broadcast to `[8192, 128]`, read at `(p, j)`, is its entry `j`. -/
theorem bias128_apply (b : FVec Ideal S128 .f32) (h1 : S128.ShapeCasts S1x128) (h2 : S1x128.Broadcasts S8192x128)
    (p : Fin 8192) (j : Fin 128) :
    broadcastTo S8192x128 (shapeCast S1x128 b h1) h2 (ix2 p j) = b (ix1 j) :=
  (broadcastTo_1b_ab_apply _ h2 p j).trans (shapeCast_a_1a_apply b h1 0 j)

/-- A bias row `[1, 128]`, cast to `[128]`, back to `[1, 128]` and broadcast to `[8192, 128]`, read at `(p, j)`, is
    its entry `(0, j)`. -/
theorem biasRow128_apply (b : FVec Ideal S1x128 .f32) (h0 : S1x128.ShapeCasts S128) (h1 : S128.ShapeCasts S1x128)
    (h2 : S1x128.Broadcasts S8192x128) (p : Fin 8192) (j : Fin 128) :
    broadcastTo S8192x128 (shapeCast S1x128 (shapeCast S128 b h0) h1) h2 (ix2 p j) = b (ix2 (0 : Fin 1) j) :=
  (bias128_apply _ h1 h2 p j).trans (shapeCast_1a_a_apply b h0 j)

/-- A bias `[64]`, cast to `[1, 64]` and broadcast to `[8192, 64]`, read at `(p, o)`, is its entry `o`. -/
theorem bias64_apply (b : FVec Ideal S64 .f32) (h1 : S64.ShapeCasts S1x64) (h2 : S1x64.Broadcasts S8192x64)
    (p : Fin 8192) (o : Fin 64) :
    broadcastTo S8192x64 (shapeCast S1x64 b h1) h2 (ix2 p o) = b (ix1 o) :=
  (broadcastTo_1b_ab_apply _ h2 p o).trans (shapeCast_a_1a_apply b h1 0 o)

/-! ## The layers as the body spells them -/

section layers

variable {F : FTy → Type} [FloatOps F]

/-- The input layer on a block of rows: product, bias, rectifier. -/
def actIn (x : Vec F S8192x64 .f32) (w : Vec F S128x64 .f32) (b : Vec F S128 .f32) : FVec F S8192x128 .f32 :=
  maximumf (addf (matmul dot_S8192x64_S128x64_S8192x128_1_1_0_0_n_n none (truncf .bf16 x bitsLt_bf16_f32) (truncf .bf16 w bitsLt_bf16_f32) (constant S8192x128 .f32 0x00000000#32))
      (broadcastTo S8192x128 (shapeCast S1x128 b shapeCasts_S128_S1x128) broadcasts_S1x128_S8192x128))
    (broadcast S8192x128 (Scalar.ofBits .f32 0x00000000#32))

/-- A hidden layer on a block of rows, its weights already narrowed: product, bias row, rectifier. -/
def actHid (h : FVec F S8192x128 .f32) (w : FVec F S128x128 .bf16) (b : Vec F S1x128 .f32) : FVec F S8192x128 .f32 :=
  maximumf (addf (matmul dot_S8192x128_S128x128_S8192x128_1_1_0_0_n_n none (truncf .bf16 h bitsLt_bf16_f32) w (constant S8192x128 .f32 0x00000000#32))
      (broadcastTo S8192x128 (shapeCast S1x128 (shapeCast S128 b shapeCasts_S1x128_S128) shapeCasts_S128_S1x128) broadcasts_S1x128_S8192x128))
    (broadcast S8192x128 (Scalar.ofBits .f32 0x00000000#32))

/-- The output layer on a block of rows: product and bias, no rectifier. -/
def actOut (h : FVec F S8192x128 .f32) (w : Vec F S64x128 .f32) (b : Vec F S64 .f32) : FVec F S8192x64 .f32 :=
  addf (matmul dot_S8192x128_S64x128_S8192x64_1_1_0_0_n_n none (truncf .bf16 h bitsLt_bf16_f32) (truncf .bf16 w bitsLt_bf16_f32) (constant S8192x64 .f32 0x00000000#32))
    (broadcastTo S8192x64 (shapeCast S1x64 b shapeCasts_S64_S1x64) broadcasts_S1x64_S8192x64)

/-- The body's first stretch is the input layer and the first two hidden layers. -/
theorem pay2_eq (v0 : Vec F S8192x64 .f32) (v2 : Vec F S128x64 .f32) (v4 : Vec F S128 .f32) (v11 : Vec F S128x128 .f32)
    (v13 : Vec F S1x128 .f32) (v22 : Vec F S128x128 .f32) (v24 : Vec F S1x128 .f32) :
    k0_pay2 v0 v2 v4 v11 v13 v22 v24
      = actHid (actHid (actIn v0 v2 v4) (truncf .bf16 v11 bitsLt_bf16_f32) v13) (truncf .bf16 v22 bitsLt_bf16_f32) v24 := rfl

/-- The stored value is the third hidden layer and the output layer of what the first stretch left. -/
theorem pay1_eq (v32 : FVec F S8192x128 .f32) (v34 : FVec F S128x128 .bf16) (v35 : Vec F S1x128 .f32) (v44 : Vec F S64x128 .f32)
    (v47 : Vec F S64 .f32) :
    k0_pay1 v32 v34 v35 v44 v47 = actOut (actHid v32 v34 v35) v44 v47 := rfl

end layers

/-! ## The layers read at an index, on the extended reals -/

theorem actIn_apply (x : Vec Ideal S8192x64 .f32) (w : Vec Ideal S128x64 .f32) (b : Vec Ideal S128 .f32) (p : Fin 8192) (j : Fin 128) :
    actIn x w b (ix2 p j) = relu (dense (fun d => x (ix2 p d)) (fun d => w (ix2 j d)) (b (ix1 j))) := by
  unfold actIn relu dense
  rw [maximumf_apply, addf_apply, broadcast_apply, matmul_in_apply, bias128_apply]
  rfl

theorem actHid_apply (h : FVec Ideal S8192x128 .f32) (w : FVec Ideal S128x128 .bf16) (b : Vec Ideal S1x128 .f32) (p : Fin 8192) (j : Fin 128) :
    actHid h w b (ix2 p j) = relu (dense (fun k => h (ix2 p k)) (fun k => w (ix2 j k)) (b (ix2 (0 : Fin 1) j))) := by
  unfold actHid relu dense
  rw [maximumf_apply, addf_apply, broadcast_apply, matmul_hid_apply, biasRow128_apply]
  rfl

theorem actOut_apply (h : FVec Ideal S8192x128 .f32) (w : Vec Ideal S64x128 .f32) (b : Vec Ideal S64 .f32) (p : Fin 8192) (o : Fin 64) :
    actOut h w b (ix2 p o) = dense (fun k => h (ix2 p k)) (fun k => w (ix2 o k)) (b (ix1 o)) := by
  unfold actOut dense
  rw [addf_apply, matmul_out_apply, bias64_apply]
  rfl

/-! ## What the body's loads read -/

theorem zeros2 : (![0, 0] : Fin 2 → Nat) = fun _ => 0 := funext fun a => by fin_cases a <;> rfl
theorem zeros1 : (![0] : Fin 1 → Nat) = fun _ => 0 := funext fun a => by fin_cases a <;> rfl

/-- Hidden layer `l`'s weights: rows `128·l … 128·l + 127` of the stacked matrix. -/
def hidW (X : Vec Ideal S384x128 .f32) (l : Fin 3) : Vec Ideal S128x128 .f32 := fun i => X (ix2 (hrow l (i 0)) (i 1))
/-- Hidden layer `l`'s bias: row `l` of the bias matrix, kept as a `[1, 128]` row. -/
def hidB (X : Vec Ideal S3x128 .f32) (l : Fin 3) : Vec Ideal S1x128 .f32 := fun i => X (ix2 l (i 1))

/-- Hidden layer `l`'s weights are loaded from rows `128·l …` of the stacked matrix: entry `(j, k)` of the load is
    entry `(128·l + j, k)` of the matrix. -/
theorem ldW0 (X : Vec Ideal S384x128 .f32) : View.ld X r0_3 = hidW X 0 := funext fun (i : S128x128.Idx) => by
  show X _ = X _
  congr 1; funext a; apply Fin.ext
  match a with
  | ⟨0, _⟩ => show 0 + 1 * (i 0).val = 128 * 0 + (i 0).val; omega
  | ⟨1, _⟩ => show 0 + 1 * (i 1).val = (i 1).val; omega
theorem ldW1 (X : Vec Ideal S384x128 .f32) : View.ld X r0_5 = hidW X 1 := funext fun (i : S128x128.Idx) => by
  show X _ = X _
  congr 1; funext a; apply Fin.ext
  match a with
  | ⟨0, _⟩ => show 128 + 1 * (i 0).val = 128 * 1 + (i 0).val; omega
  | ⟨1, _⟩ => show 0 + 1 * (i 1).val = (i 1).val; omega
theorem ldW2 (X : Vec Ideal S384x128 .f32) : View.ld X r0_7 = hidW X 2 := funext fun (i : S128x128.Idx) => by
  show X _ = X _
  congr 1; funext a; apply Fin.ext
  match a with
  | ⟨0, _⟩ => show 256 + 1 * (i 0).val = 128 * 2 + (i 0).val; omega
  | ⟨1, _⟩ => show 0 + 1 * (i 1).val = (i 1).val; omega

/-- Hidden layer `l`'s bias is loaded as row `l` of the `[3, 128]` bias matrix. -/
theorem ldB0 (X : Vec Ideal S3x128 .f32) : View.ld X r0_4 = hidB X 0 := funext fun (i : S1x128.Idx) => by
  show X _ = X _
  congr 1; funext a; apply Fin.ext
  have h0 : (i 0).val < 1 := (i 0).isLt
  match a with
  | ⟨0, _⟩ => show 0 + 1 * (i 0).val = 0; omega
  | ⟨1, _⟩ => show 0 + 1 * (i 1).val = (i 1).val; omega
theorem ldB1 (X : Vec Ideal S3x128 .f32) : View.ld X r0_6 = hidB X 1 := funext fun (i : S1x128.Idx) => by
  show X _ = X _
  congr 1; funext a; apply Fin.ext
  have h0 : (i 0).val < 1 := (i 0).isLt
  match a with
  | ⟨0, _⟩ => show 1 + 1 * (i 0).val = 1; omega
  | ⟨1, _⟩ => show 0 + 1 * (i 1).val = (i 1).val; omega
theorem ldB2 (X : Vec Ideal S3x128 .f32) : View.ld X r0_8 = hidB X 2 := funext fun (i : S1x128.Idx) => by
  show X _ = X _
  congr 1; funext a; apply Fin.ext
  have h0 : (i 0).val < 1 := (i 0).isLt
  match a with
  | ⟨0, _⟩ => show 2 + 1 * (i 0).val = 2; omega
  | ⟨1, _⟩ => show 0 + 1 * (i 1).val = (i 1).val; omega

/-! ## The block -/

/-- THE BLOCK: what the body leaves in the output window's buffer, from the input windows' contents — the block
    `x0` of activations and the whole weight and bias arrays `x1 … x6` —, read at row `p`, unit `o`, is the network on
    row `p` of `x0`. -/
theorem out_block_at (x0 : Vec Ideal S8192x64 .f32) (x1 : Vec Ideal S128x64 .f32) (x2 : Vec Ideal S128 .f32) (x3 : Vec Ideal S384x128 .f32)
    (x4 : Vec Ideal S3x128 .f32) (x5 : Vec Ideal S64x128 .f32) (x6 : Vec Ideal S64 .f32) (p : Fin 8192) (o : Fin 64) :
    out0_7 x0 x1 x2 x3 x4 x5 x6 (ix2 p o) = mlpRow x1 x2 x3 x4 x5 x6 (fun d => x0 (ix2 p d)) o := by
  unfold out0_7
  rw [View.canon_unit_zero zeros2]
  simp only [View.ld_unit_zero (S := S8192x64) zeros2, View.ld_unit_zero (S := S128x64) zeros2, View.ld_unit_zero (S := S128) zeros1,
    View.ld_unit_zero (S := S64x128) zeros2, View.ld_unit_zero (S := S64) zeros1]
  rw [ldW0, ldW1, ldW2, ldB0, ldB1, ldB2, pay1_eq, pay2_eq, actOut_apply]
  simp only [actHid_apply, actIn_apply, truncf_apply]
  rfl

end Cert.KernelIdeal.Block

end
-- ==== Proof.KernelValue.lean ====
/-
  From the kernel's blocks to its result array.

  The grid has 128 points. At point `t` the activations' window and the result's window are both on block `t` — rows
  `8192·t … 8192·t + 8191`, all 64 columns — while every weight and bias window stays on its one block, the whole
  array. So what point `t` writes back is, at row `p` of the block, the network applied to batch row `8192·t + p`:
  block `t` of the network on the whole batch. The 128 blocks tile the `[1048576, 64]` result (row `r` lies in block
  `r / 8192`), so after the run the result array IS the network on the whole batch.
-/
import proofs.«144695_j25202868092982_1_alg».proof.Proof.Gen.KernelIdeal.Value
import proofs.«144695_j25202868092982_1_alg».proof.Proof.KernelBlock
import proofs.«144695_j25202868092982_1_alg».proof.Proof.MlpSpec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Mlp

variable (m : (ℓ : Loc nD τ sig) → Buf (Elt Ideal) ℓ) (ρ : Dev nD → PrngReg)

/-! ## The index maps over the grid -/

/-- The activations' and the result's windows are on block `t` of the rows at point `t`, on the one block of columns. -/
theorem idx_moving : ∀ t : Fin cfg0.N,
    win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

/-- Every weight and bias window is on block 0 of every axis at every point. -/
theorem idx_fixed : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- The batch row that row `p` of point `t`'s block is. -/
def brow (t : Fin cfg0.N) (p : Fin 8192) : Fin 1048576 :=
  ⟨8192 * t.val + p.val, by have ht : t.val < 128 := Nat.lt_of_lt_of_eq t.isLt N_0; have hp := p.isLt; omega⟩

/-! ## The input windows' blocks -/

/-- Row `p` of the activations' block at point `t` is batch row `8192·t + p` of the activations. -/
theorem xblk_at (c : Dev nD) (t : Fin cfg0.N) (p : Fin 8192) (d : Fin 64) :
    iblk m c 0 t (ix2 p d) = (m ((c : Thread nD τ).loc main_arg0)) (ix2 (brow t p) d) := by
  obtain ⟨e0, e1, -, -⟩ := idx_moving t
  show V m c main_arg0 (((cfg0.win 0).blk t).view.emb (ix2 p d)) = V m c main_arg0 (ix2 (brow t p) d)
  congr 1; funext a; apply Fin.ext
  match a with
  | ⟨0, _⟩ => show win0_0.index t (0 : Fin 2) * 8192 + 1 * p.val = 8192 * t.val + p.val; omega
  | ⟨1, _⟩ => show win0_0.index t (1 : Fin 2) * 64 + 1 * d.val = d.val; omega

/-- The input layer's weights' block is the whole array, at every point; -/
theorem wblk1 (c : Dev nD) (t : Fin cfg0.N) : (iblk m c 1 t : Mat 128 64) = (m ((c : Thread nD τ).loc main_arg1)) := by
  obtain ⟨e0, e1, -⟩ := idx_fixed t
  refine funext fun (y : S128x64.Idx) => ?_
  show V m c main_arg1 (((cfg0.win 1).blk t).view.emb y) = V m c main_arg1 y
  congr 1; funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- the input layer's bias'; -/
theorem wblk2 (c : Dev nD) (t : Fin cfg0.N) : (iblk m c 2 t : Vct 128) = (m ((c : Thread nD τ).loc main_arg2)) := by
  obtain ⟨-, -, e0, -⟩ := idx_fixed t
  refine funext fun (y : S128.Idx) => ?_
  show V m c main_arg2 (((cfg0.win 2).blk t).view.emb y) = V m c main_arg2 y
  congr 1; funext a; apply Fin.ext
  match a with
  | ⟨0, _⟩ => show win0_2.index t (0 : Fin 1) * 128 + 1 * (y 0).val = (y 0).val; omega

/-- the stacked hidden weights'; -/
theorem wblk3 (c : Dev nD) (t : Fin cfg0.N) : (iblk m c 3 t : Mat 384 128) = (m ((c : Thread nD τ).loc main_arg3)) := by
  obtain ⟨-, -, -, e0, e1, -⟩ := idx_fixed t
  refine funext fun (y : S384x128.Idx) => ?_
  show V m c main_arg3 (((cfg0.win 3).blk t).view.emb y) = V m c main_arg3 y
  congr 1; funext a; apply Fin.ext
  match a with
  | ⟨0, _⟩ => show win0_3.index t (0 : Fin 2) * 384 + 1 * (y 0).val = (y 0).val; omega
  | ⟨1, _⟩ => show win0_3.index t (1 : Fin 2) * 128 + 1 * (y 1).val = (y 1).val; omega

/-- the hidden biases'; -/
theorem wblk4 (c : Dev nD) (t : Fin cfg0.N) : (iblk m c 4 t : Mat 3 128) = (m ((c : Thread nD τ).loc main_arg4)) := by
  obtain ⟨-, -, -, -, -, e0, e1, -⟩ := idx_fixed t
  refine funext fun (y : S3x128.Idx) => ?_
  show V m c main_arg4 (((cfg0.win 4).blk t).view.emb y) = V m c main_arg4 y
  congr 1; funext a; apply Fin.ext
  match a with
  | ⟨0, _⟩ => show win0_4.index t (0 : Fin 2) * 3 + 1 * (y 0).val = (y 0).val; omega
  | ⟨1, _⟩ => show win0_4.index t (1 : Fin 2) * 128 + 1 * (y 1).val = (y 1).val; omega

/-- the output layer's weights'; -/
theorem wblk5 (c : Dev nD) (t : Fin cfg0.N) : (iblk m c 5 t : Mat 64 128) = (m ((c : Thread nD τ).loc main_arg5)) := by
  obtain ⟨-, -, -, -, -, -, -, e0, e1, -⟩ := idx_fixed t
  refine funext fun (y : S64x128.Idx) => ?_
  show V m c main_arg5 (((cfg0.win 5).blk t).view.emb y) = V m c main_arg5 y
  congr 1; funext a; apply Fin.ext
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- and the output layer's bias'. -/
theorem wblk6 (c : Dev nD) (t : Fin cfg0.N) : (iblk m c 6 t : Vct 64) = (m ((c : Thread nD τ).loc main_arg6)) := by
  obtain ⟨-, -, -, -, -, -, -, -, -, e0⟩ := idx_fixed t
  refine funext fun (y : S64.Idx) => ?_
  show V m c main_arg6 (((cfg0.win 6).blk t).view.emb y) = V m c main_arg6 y
  congr 1; funext a; apply Fin.ext
  match a with
  | ⟨0, _⟩ => show win0_6.index t (0 : Fin 1) * 64 + 1 * (y 0).val = (y 0).val; omega

/-! ## What each point writes back -/

/-- The network on the whole batch, of the argument arrays as launched: what the result array ends holding. -/
def G (c : Dev nD) : Buf (Elt Ideal) ((c : Thread nD τ).loc main_v0) :=
  mlp (N := 1048576) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem G_apply (c : Dev nD) (r : Fin 1048576) (o : Fin 64) :
    G m c (ix2 r o) = mlpRow (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (fun d => (m ((c : Thread nD τ).loc main_arg0)) (ix2 r d)) o := rfl

/-- The network on a row depends on its seven arguments only through their values. -/
theorem mlpRow_congr {a1 a1' : Mat 128 64} {a2 a2' : Vct 128} {a3 a3' : Mat 384 128} {a4 a4' : Mat 3 128}
    {a5 a5' : Mat 64 128} {a6 a6' : Vct 64} {x x' : Fin 64 → EReal} (h1 : a1 = a1') (h2 : a2 = a2') (h3 : a3 = a3')
    (h4 : a4 = a4') (h5 : a5 = a5') (h6 : a6 = a6') (hx : x = x') (o : Fin 64) :
    mlpRow a1 a2 a3 a4 a5 a6 x o = mlpRow a1' a2' a3' a4' a5' a6' x' o := by
  subst h1 h2 h3 h4 h5 h6 hx; rfl

/-- Row `p`, column `o` of the result's block at point `t` sits in the array at row `8192·t + p`, column `o`. -/
theorem emb7 (t : Fin cfg0.N) (p : Fin 8192) (o : Fin 64) :
    ((cfg0.win 7).blk t).view.emb (ix2 p o) = ix2 (brow t p) o := by
  obtain ⟨-, -, e0, e1⟩ := idx_moving t
  funext a; apply Fin.ext
  match a with
  | ⟨0, _⟩ => show win0_7.index t (0 : Fin 2) * 8192 + 1 * p.val = 8192 * t.val + p.val; omega
  | ⟨1, _⟩ => show win0_7.index t (1 : Fin 2) * 64 + 1 * o.val = o.val; omega

/-- WHAT POINT `t` WRITES BACK is block `t` of the network on the whole batch. -/
theorem flushed_eq (c : Dev nD) (t : Fin cfg0.N) :
    (dats m 0 c).flushed 7 t = ((cfg0.win 7).blk t).view.read (Elt Ideal) (G m c) := by
  rw [Value.flushed7]
  refine funext fun (y : S8192x64.Idx) => ?_
  obtain ⟨p, o, rfl⟩ : ∃ (p : Fin 8192) (o : Fin 64), y = ix2 p o := ⟨y 0, y 1, eq_ix2 y⟩
  show out0_7 (iblk m c 0 t) (iblk m c 1 t) (iblk m c 2 t) (iblk m c 3 t) (iblk m c 4 t) (iblk m c 5 t) (iblk m c 6 t) (ix2 p o)
      = G m c (((cfg0.win 7).blk t).view.emb (ix2 p o))
  rw [emb7 t p o, G_apply]
  refine (Block.out_block_at (iblk m c 0 t) (iblk m c 1 t) (iblk m c 2 t) (iblk m c 3 t) (iblk m c 4 t) (iblk m c 5 t)
    (iblk m c 6 t) p o).trans ?_
  exact mlpRow_congr (wblk1 m c t) (wblk2 m c t) (wblk3 m c t) (wblk4 m c t) (wblk5 m c t) (wblk6 m c t)
    (funext fun d => xblk_at m c t p d) o

/-! ## The blocks tile the result -/

/-- An index of the result is in point `t`'s block iff each coordinate is in the block's range on its axis. -/
theorem mem_blk (t : Fin cfg0.N) (i : S1048576x64.Idx) :
    i ∈ ((cfg0.win 7).blk t).view.set ↔ ∀ a : Fin 2, win0_7.index t a * S8192x64.size a ≤ (i a).val ∧ (i a).val < win0_7.index t a * S8192x64.size a + S8192x64.size a := by
  show i ∈ ((View.whole main_v0).slice (win0_7.rect t)).set ↔ _
  rw [View.set_slice_whole, Rect.mem_set_unit]
  exact Iff.rfl

/-- Every index of the result is in the block of the point its row falls in, and every point writes back. -/
theorem cover (i : S1048576x64.Idx) :
    ∃ t : Fin cfg0.N, (cfg0.win 7).flush t = true ∧ i ∈ ((cfg0.win 7).blk t).view.set := by
  have hi0 : (i 0).val < 1048576 := (i 0).isLt
  have hi1 : (i 1).val < 64 := (i 1).isLt
  have hN : cfg0.N = 128 := N_0
  obtain ⟨t, ht⟩ : ∃ t : Fin cfg0.N, t.val = (i 0).val / 8192 := ⟨⟨(i 0).val / 8192, by rw [hN]; omega⟩, rfl⟩
  obtain ⟨-, -, e0, e1⟩ := idx_moving t
  refine ⟨t, flush0_7 t, ?_⟩
  rw [mem_blk]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 64 ≤ (i 1).val ∧ (i 1).val < win0_7.index t (1 : Fin 2) * 64 + 64; omega

/-- THE RESULT ARRAY after the run is the network on the whole batch. -/
theorem final (c : Dev nD) : (dats m 0 c).arrAt 7 cfg0.N = G m c :=
  (dats m 0 c).arrAt_eq_of_cover 7 (G m c) (fun t _ => flushed_eq m c t) cover

/-! ## The run -/

/-- Every weakly fair execution of the kernel's program ends with the result array at the network on the whole batch
    and the argument arrays unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefValue.lean ====
/-
  The reference program read at an index.

  The reference computes the network on the whole batch at once: each layer is a `dot_general` contracting the
  second axis of both operands, a bias broadcast over the rows, and (but for the last) the maximum with a `0.0`
  splat. Hidden layer `l`'s weights are slab `l` of the stacked matrix reshaped `[384, 128] → [3, 128, 128]`, which
  in row-major order is rows `128·l … 128·l + 127`; its bias is row `l` of the bias matrix. Read at batch row `p`,
  every stage depends on row `p` of the input only, and the result at `(p, o)` is the network of `Cert.Mlp` on that
  row.
-/
import proofs.«144695_j25202868092982_1_alg».proof.Proof.Gen.ReferenceIdeal.Read
import proofs.«144695_j25202868092982_1_alg».proof.Proof.MlpSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Mlp

variable (x0 : (⟨S1048576x64, .f32⟩ : BufTy).Contents (Elt Ideal)) (x1 : (⟨S128x64, .f32⟩ : BufTy).Contents (Elt Ideal)) (x2 : (⟨S128, .f32⟩ : BufTy).Contents (Elt Ideal)) (x3 : (⟨S384x128, .f32⟩ : BufTy).Contents (Elt Ideal))
  (x4 : (⟨S3x128, .f32⟩ : BufTy).Contents (Elt Ideal)) (x5 : (⟨S64x128, .f32⟩ : BufTy).Contents (Elt Ideal)) (x6 : (⟨S64, .f32⟩ : BufTy).Contents (Elt Ideal))

/-! ## Operand indices of the products, and of the bias broadcasts -/

theorem lidx1 (p : Fin 1048576) (j : Fin 128) (k : Fin 64) : lidx_main_v1 (ix2 p j) k = ix2 p k :=
  funext fun a => Fin.ext (by match a with | ⟨0, _⟩ => rfl | ⟨1, _⟩ => rfl)
theorem ridx1 (p : Fin 1048576) (j : Fin 128) (k : Fin 64) : ridx_main_v1 (ix2 p j) k = ix2 j k :=
  funext fun a => Fin.ext (by match a with | ⟨0, _⟩ => rfl | ⟨1, _⟩ => rfl)
theorem lidx8 (p : Fin 1048576) (j : Fin 128) (k : Fin 128) : lidx_main_v8 (ix2 p j) k = ix2 p k :=
  funext fun a => Fin.ext (by match a with | ⟨0, _⟩ => rfl | ⟨1, _⟩ => rfl)
theorem ridx8 (p : Fin 1048576) (j : Fin 128) (k : Fin 128) : ridx_main_v8 (ix2 p j) k = ix2 j k :=
  funext fun a => Fin.ext (by match a with | ⟨0, _⟩ => rfl | ⟨1, _⟩ => rfl)
theorem lidx17 (p : Fin 1048576) (j : Fin 128) (k : Fin 128) : lidx_main_v17 (ix2 p j) k = ix2 p k :=
  funext fun a => Fin.ext (by match a with | ⟨0, _⟩ => rfl | ⟨1, _⟩ => rfl)
theorem ridx17 (p : Fin 1048576) (j : Fin 128) (k : Fin 128) : ridx_main_v17 (ix2 p j) k = ix2 j k :=
  funext fun a => Fin.ext (by match a with | ⟨0, _⟩ => rfl | ⟨1, _⟩ => rfl)
theorem lidx26 (p : Fin 1048576) (j : Fin 128) (k : Fin 128) : lidx_main_v26 (ix2 p j) k = ix2 p k :=
  funext fun a => Fin.ext (by match a with | ⟨0, _⟩ => rfl | ⟨1, _⟩ => rfl)
theorem ridx26 (p : Fin 1048576) (j : Fin 128) (k : Fin 128) : ridx_main_v26 (ix2 p j) k = ix2 j k :=
  funext fun a => Fin.ext (by match a with | ⟨0, _⟩ => rfl | ⟨1, _⟩ => rfl)
theorem lidx33 (p : Fin 1048576) (o : Fin 64) (k : Fin 128) : lidx_main_v33 (ix2 p o) k = ix2 p k :=
  funext fun a => Fin.ext (by match a with | ⟨0, _⟩ => rfl | ⟨1, _⟩ => rfl)
theorem ridx33 (p : Fin 1048576) (o : Fin 64) (k : Fin 128) : ridx_main_v33 (ix2 p o) k = ix2 o k :=
  funext fun a => Fin.ext (by match a with | ⟨0, _⟩ => rfl | ⟨1, _⟩ => rfl)

/-- The input layer's bias, broadcast `[128] → [1, 128] → [N, 128]`, read at `(p, j)`, is its entry `j`. -/
theorem bias_in_at (p : Fin 1048576) (j : Fin 128) : val_main_v3 x2 (ix2 p j) = x2 (ix1 j) := by
  rw [val_main_v3_apply, val_main_v2_apply]
  congr 1; funext a; apply Fin.ext
  match a with | ⟨0, _⟩ => rfl

/-- The output layer's bias likewise. -/
theorem bias_out_at (p : Fin 1048576) (o : Fin 64) : val_main_v35 x6 (ix2 p o) = x6 (ix1 o) := by
  rw [val_main_v35_apply, val_main_v34_apply]
  congr 1; funext a; apply Fin.ext
  match a with | ⟨0, _⟩ => rfl

/-! ## The hidden layers' weights and biases -/

/-- Slab 0 of the reshaped stack, as a matrix: rows `0 … 127`. -/
theorem w0_at (j k : Fin 128) : val_main_v7 x3 (ix2 j k) = x3 (ix2 (hrow 0 j) k) := by
  rw [val_main_v7_apply, val_main_v6_apply, val_main_v0_apply]
  congr 1; funext a; apply Fin.ext
  have hj := j.isLt; have hk := k.isLt
  match a with
  | ⟨0, _⟩ => show ((0 * 128 + (j.val * 128 + k.val) / 128 % 128) * 128 + (j.val * 128 + k.val) % 128) / 128 = 128 * 0 + j.val; omega
  | ⟨1, _⟩ => show ((0 * 128 + (j.val * 128 + k.val) / 128 % 128) * 128 + (j.val * 128 + k.val) % 128) % 128 = k.val; omega

/-- Slab 1: rows `128 … 255`. -/
theorem w1_at (j k : Fin 128) : val_main_v16 x3 (ix2 j k) = x3 (ix2 (hrow 1 j) k) := by
  rw [val_main_v16_apply, val_main_v15_apply, val_main_v0_apply]
  congr 1; funext a; apply Fin.ext
  have hj := j.isLt; have hk := k.isLt
  match a with
  | ⟨0, _⟩ => show (((1 + 0) * 128 + (j.val * 128 + k.val) / 128 % 128) * 128 + (j.val * 128 + k.val) % 128) / 128 = 128 * 1 + j.val; omega
  | ⟨1, _⟩ => show (((1 + 0) * 128 + (j.val * 128 + k.val) / 128 % 128) * 128 + (j.val * 128 + k.val) % 128) % 128 = k.val; omega

/-- Slab 2: rows `256 … 383`. -/
theorem w2_at (j k : Fin 128) : val_main_v25 x3 (ix2 j k) = x3 (ix2 (hrow 2 j) k) := by
  rw [val_main_v25_apply, val_main_v24_apply, val_main_v0_apply]
  congr 1; funext a; apply Fin.ext
  have hj := j.isLt; have hk := k.isLt
  match a with
  | ⟨0, _⟩ => show (((2 + 0) * 128 + (j.val * 128 + k.val) / 128 % 128) * 128 + (j.val * 128 + k.val) % 128) / 128 = 128 * 2 + j.val; omega
  | ⟨1, _⟩ => show (((2 + 0) * 128 + (j.val * 128 + k.val) / 128 % 128) * 128 + (j.val * 128 + k.val) % 128) % 128 = k.val; omega

/-- Hidden layer 0's bias — row 0 of the bias matrix sliced, flattened and broadcast —, read at `(p, j)`. -/
theorem b0_at (p : Fin 1048576) (j : Fin 128) : val_main_v12 x4 (ix2 p j) = x4 (ix2 (0 : Fin 3) j) := by
  rw [val_main_v12_apply, val_main_v11_apply, val_main_v10_apply, val_main_v9_apply]
  congr 1; funext a; apply Fin.ext
  have hj := j.isLt
  match a with
  | ⟨0, _⟩ => rfl
  | ⟨1, _⟩ => show j.val % 128 = j.val; omega

theorem b1_at (p : Fin 1048576) (j : Fin 128) : val_main_v21 x4 (ix2 p j) = x4 (ix2 (1 : Fin 3) j) := by
  rw [val_main_v21_apply, val_main_v20_apply, val_main_v19_apply, val_main_v18_apply]
  congr 1; funext a; apply Fin.ext
  have hj := j.isLt
  match a with
  | ⟨0, _⟩ => rfl
  | ⟨1, _⟩ => show j.val % 128 = j.val; omega

theorem b2_at (p : Fin 1048576) (j : Fin 128) : val_main_v30 x4 (ix2 p j) = x4 (ix2 (2 : Fin 3) j) := by
  rw [val_main_v30_apply, val_main_v29_apply, val_main_v28_apply, val_main_v27_apply]
  congr 1; funext a; apply Fin.ext
  have hj := j.isLt
  match a with
  | ⟨0, _⟩ => rfl
  | ⟨1, _⟩ => show j.val % 128 = j.val; omega

/-! ## The layers, one batch row at a time -/

/-- After the input layer, row `p` of the activations is the input layer on row `p` of the input. -/
theorem v5_at (p : Fin 1048576) (j : Fin 128) :
    val_main_v5 x0 x1 x2 (ix2 p j) = hidIn x1 x2 (fun d => x0 (ix2 p d)) j := by
  rw [val_main_v5_apply, val_main_v4_apply, val_main_v1_apply, bias_in_at, val_main_call0_v0_apply, val_main_call0_cst_apply]
  simp only [lidx1, ridx1]
  rfl

theorem v5_row (p : Fin 1048576) :
    (fun j : Fin 128 => val_main_v5 x0 x1 x2 (ix2 p j)) = hidIn x1 x2 (fun d => x0 (ix2 p d)) :=
  funext fun j => v5_at x0 x1 x2 p j

/-- Hidden layer 0 on row `p`. -/
theorem v14_at (p : Fin 1048576) (j : Fin 128) :
    val_main_v14 x0 x1 x2 x3 x4 (ix2 p j) = hidNext x3 x4 0 (fun k => val_main_v5 x0 x1 x2 (ix2 p k)) j := by
  rw [val_main_v14_apply, val_main_v13_apply, val_main_v8_apply, b0_at, val_main_call1_v0_apply, val_main_call1_cst_apply]
  simp only [lidx8, ridx8, w0_at]
  rfl

theorem v14_row (p : Fin 1048576) :
    (fun j : Fin 128 => val_main_v14 x0 x1 x2 x3 x4 (ix2 p j))
      = hidNext x3 x4 0 (hidIn x1 x2 (fun d => x0 (ix2 p d))) :=
  funext fun j => (v14_at x0 x1 x2 x3 x4 p j).trans (congrArg (fun h => hidNext x3 x4 0 h j) (v5_row x0 x1 x2 p))

/-- Hidden layer 1 on row `p`. -/
theorem v23_at (p : Fin 1048576) (j : Fin 128) :
    val_main_v23 x0 x1 x2 x3 x4 (ix2 p j) = hidNext x3 x4 1 (fun k => val_main_v14 x0 x1 x2 x3 x4 (ix2 p k)) j := by
  rw [val_main_v23_apply, val_main_v22_apply, val_main_v17_apply, b1_at, val_main_call2_v0_apply, val_main_call2_cst_apply]
  simp only [lidx17, ridx17, w1_at]
  rfl

theorem v23_row (p : Fin 1048576) :
    (fun j : Fin 128 => val_main_v23 x0 x1 x2 x3 x4 (ix2 p j))
      = hidNext x3 x4 1 (hidNext x3 x4 0 (hidIn x1 x2 (fun d => x0 (ix2 p d)))) :=
  funext fun j => (v23_at x0 x1 x2 x3 x4 p j).trans (congrArg (fun h => hidNext x3 x4 1 h j) (v14_row x0 x1 x2 x3 x4 p))

/-- Hidden layer 2 on row `p`. -/
theorem v32_at (p : Fin 1048576) (j : Fin 128) :
    val_main_v32 x0 x1 x2 x3 x4 (ix2 p j) = hidNext x3 x4 2 (fun k => val_main_v23 x0 x1 x2 x3 x4 (ix2 p k)) j := by
  rw [val_main_v32_apply, val_main_v31_apply, val_main_v26_apply, b2_at, val_main_call3_v0_apply, val_main_call3_cst_apply]
  simp only [lidx26, ridx26, w2_at]
  rfl

theorem v32_row (p : Fin 1048576) :
    (fun j : Fin 128 => val_main_v32 x0 x1 x2 x3 x4 (ix2 p j))
      = hidNext x3 x4 2 (hidNext x3 x4 1 (hidNext x3 x4 0 (hidIn x1 x2 (fun d => x0 (ix2 p d))))) :=
  funext fun j => (v32_at x0 x1 x2 x3 x4 p j).trans (congrArg (fun h => hidNext x3 x4 2 h j) (v23_row x0 x1 x2 x3 x4 p))

/-- The output layer on row `p`. -/
theorem v36_at (p : Fin 1048576) (o : Fin 64) :
    val_main_v36 x0 x1 x2 x3 x4 x5 x6 (ix2 p o)
      = outUnit x5 x6 (fun k => val_main_v32 x0 x1 x2 x3 x4 (ix2 p k)) o := by
  rw [val_main_v36_apply, val_main_v33_apply, bias_out_at]
  simp only [lidx33, ridx33]
  rfl

/-- THE REFERENCE'S RESULT is the network on the whole batch. -/
theorem result_eq : val_main_v36 x0 x1 x2 x3 x4 x5 x6 = mlp x0 x1 x2 x3 x4 x5 x6 := by
  funext i
  obtain ⟨p, o, rfl⟩ : ∃ (p : Fin 1048576) (o : Fin 64), i = ix2 p o := ⟨i 0, i 1, eq_ix2 i⟩
  exact (v36_at x0 x1 x2 x3 x4 x5 x6 p o).trans (congrArg (fun h => outUnit x5 x6 h o) (v32_row x0 x1 x2 x3 x4 p))

end Cert.ReferenceIdeal.RefValue

end
-- ==== Proof.lean ====
/-
  A fully fused multilayer perceptron, tiled over the batch, against the same network written with whole-batch
  matrix products.

  Both programs map a batch `x : [1048576, 64]` through an input layer `[128, 64]`, three hidden layers stored as one
  stacked `[384, 128]` matrix with a `[3, 128]` bias matrix, and an output layer `[64, 128]`; every layer is
  `h ↦ h · Wᵀ + b`, followed by `max(·, 0)` for all but the last. The kernel walks the batch in 128 blocks of 8192
  rows, keeping the weights resident and narrowing each product's operands to sixteen bits; the reference applies each
  layer to the whole batch. On the extended reals the narrowing is the identity, a matrix product into a zero
  accumulator is the plain sum of products, and a row of the result depends on the same row of the input only: so both
  results are, entry by entry, the network `Cert.Mlp.mlp` of the arguments. No algebraic law beyond reading the two
  programs' sums over the same index is needed, and the inputs' finiteness is never used.

  `Proof/MlpSpec.lean` states the network on a row; `Proof/KernelBlock.lean` reads the kernel's body at an index of
  a block; `Proof/KernelValue.lean` assembles the blocks into the result array; `Proof/RefValue.lean` reads the
  reference at an index. The idealization rewrote nothing, so the kernel's program is its own idealization.
-/
import proofs.«144695_j25202868092982_1_alg».proof.Defs
import proofs.«144695_j25202868092982_1_alg».proof.Proof.Gen.Kernel
import proofs.«144695_j25202868092982_1_alg».proof.Proof.Gen.Kernel.Frame
import proofs.«144695_j25202868092982_1_alg».proof.Proof.Gen.KernelIdeal
import proofs.«144695_j25202868092982_1_alg».proof.Proof.Gen.KernelIdeal.Frame
import proofs.«144695_j25202868092982_1_alg».proof.Proof.Gen.KernelIdeal.Value
import proofs.«144695_j25202868092982_1_alg».proof.Proof.Gen.ReferenceIdeal
import proofs.«144695_j25202868092982_1_alg».proof.Proof.Gen.ReferenceIdeal.Run
import proofs.«144695_j25202868092982_1_alg».proof.Proof.Gen.ReferenceIdeal.Read
import proofs.«144695_j25202868092982_1_alg».proof.Proof.Gen.Pre_finite_inputs
import proofs.«144695_j25202868092982_1_alg».proof.Proof.MlpSpec
import proofs.«144695_j25202868092982_1_alg».proof.Proof.KernelBlock
import proofs.«144695_j25202868092982_1_alg».proof.Proof.KernelValue
import proofs.«144695_j25202868092982_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_k : Cert.frame_Kernel := fun m ρ _ => Cert.Kernel.Gen.frame m ρ

/-- So does the same program read on the extended reals. -/
theorem frame_ki : Cert.frame_KernelIdeal := fun m ρ _ => Cert.KernelIdeal.Gen.frame m ρ

/-- The reference is a straight line of whole-array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network on the whole batch in their result: the kernel's array block by block, the
    reference's by its composed operations, of arguments that agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  all_goals rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
